-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x4096x512 : Shape := ⟨3, ![4, 4096, 512]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x4096x512 : S_.BroadcastsInDim S4x4096x512 (![] : Fin 0 → Fin S4x4096x512.rank)
  reducesTo_S4x4096x512_S_d0_1_2 : S4x4096x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x512 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S4x4096x512 .f32) (main_arg2 : FVec F S512x1024 .f32) (main_arg3 : FVec F S512 .f32) (main_arg4 : FVec F S1024x512 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S4x2048x1024 : Shape := ⟨3, ![4, 2048, 1024]⟩
abbrev S4x4096x512 : Shape := ⟨3, ![4, 4096, 512]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S1x512x1024 : Shape := ⟨3, ![1, 512, 1024]⟩
abbrev S1x4096x512 : Shape := ⟨3, ![1, 4096, 512]⟩
abbrev S512x512 : Shape := ⟨2, ![512, 512]⟩
abbrev S1x512 : Shape := ⟨2, ![1, 512]⟩
abbrev S4096x512 : Shape := ⟨2, ![4096, 512]⟩
abbrev S512x4096 : Shape := ⟨2, ![512, 4096]⟩
abbrev S512x1 : Shape := ⟨2, ![512, 1]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x4096x512, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S1024x512, .f32⟩
  | .hbm, ⟨7, _⟩ => ⟨S1024x512, .bf16⟩
  | .hbm, ⟨8, _⟩ => ⟨S512x1024, .f32⟩
  | .hbm, ⟨9, _⟩ => ⟨S512x1024, .bf16⟩
  | .hbm, ⟨10, _⟩ => ⟨S4x4096x512, .bf16⟩
  | .hbm, ⟨11, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S512, .f32⟩
  | .local _ .vmem, ⟨6, _⟩ => ⟨S512x1024, .bf16⟩
  | .local _ .vmem, ⟨7, _⟩ => ⟨S1024, .f32⟩
  | .local _ .vmem, ⟨8, _⟩ => ⟨S1x512x1024, .f32⟩
  | .local _ .vmem, ⟨9, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S512x1024_S1024x512_1_0 : S512x1024.Transposes [1, 0] S1024x512
  bitsLt_bf16_f32 : FTy.bits .bf16 < FTy.bits .f32
  transposes_S1024x512_S512x1024_1_0 : S1024x512.Transposes [1, 0] S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  reduces_S512x4096_S512 : S512x4096.Reduces [1] S512
  shapeCasts_S512_S512x1 : S512.ShapeCasts S512x1
  broadcasts_S512x1_S512x4096 : S512x1.Broadcasts S512x4096
  broadcasts_S512x1_S512x512 : S512x1.Broadcasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x512_S512x512_1_0_0_1_n_n_wf : DotDims.WF S512x1024 S1024x512 S512x512 [1] [0] [0] [1] [] []
  dot_S512x512_S4096x512_S512x4096_1_1_0_0_n_n_wf : DotDims.WF S512x512 S4096x512 S512x4096 [1] [1] [0] [0] [] []
  dot_S512x4096_S4096x512_S512x512_1_0_0_1_n_n_wf : DotDims.WF S512x4096 S4096x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S4x4096x512.size a
  hwx0_1 : ∀ i : grid0.Coords, EltTy.bits .bf16 = 32 ∨ (Rect.block (s := S4x4096x512) S1x4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x2048x1024.size a
  hwx0_6 : ∀ i : grid0.Coords, EltTy.bits .f32 = 32 ∨ (Rect.block (s := S4x2048x1024) S1x512x1024.size (cc0_transform_6 i) (hinb0_6 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x4096x512 : Shape := ⟨3, ![4, 4096, 512]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S4x2048x512 : Shape := ⟨3, ![4, 2048, 512]⟩
abbrev S1x1x512 : Shape := ⟨3, ![1, 1, 512]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x4096x512, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S4x2048x512, .f32⟩
  | .hbm, ⟨7, _⟩ => ⟨S1x1x512, .f32⟩
  | .hbm, ⟨8, _⟩ => ⟨S4x2048x512, .f32⟩
  | .hbm, ⟨9, _⟩ => ⟨S4x2048x512, .f32⟩
  | .hbm, ⟨10, _⟩ => ⟨S4x2048x4096, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x4096, .f32⟩
  | .hbm, ⟨24, _⟩ => ⟨S4x2048x4096, .f32⟩
  | .hbm, ⟨25, _⟩ => ⟨S4x2048x512, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  reducesTo_S4x2048x4096_S4x2048_d2 : S4x2048x4096.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x4096_0_1_2 : S4x2048x1.BroadcastsInDim S4x2048x4096 (![0, 1, 2] : Fin 3 → Fin S4x2048x4096.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S512x1024_S4x2048x512_2_1_01_0_n_n_wf : DotDims.WF S4x2048x1024 S512x1024 S4x2048x512 [2] [1] [0, 1] [0] [] []
  dot_S4x2048x512_S4x4096x512_S4x2048x4096_2_2_1_1_0_0_wf : DotDims.WF S4x2048x512 S4x4096x512 S4x2048x4096 [2] [2] [1] [1] [0] [0]
  dot_S4x2048x4096_S4x4096x512_S4x2048x512_2_1_1_2_0_0_wf : DotDims.WF S4x2048x4096 S4x4096x512 S4x2048x512 [2] [1] [1] [2] [0] [0]
  dot_S4x2048x512_S1024x512_S4x2048x1024_2_1_01_0_n_n_wf : DotDims.WF S4x2048x512 S1024x512 S4x2048x1024 [2] [1] [0, 1] [0] [] []

variable [Facts₀]

def dot_S4x2048x1024_S512x1024_S4x2048x512_2_1_01_0_n_n : DotDims S4x2048x1024 S512x1024 S4x2048x512 where
  lhsContracting := [2]
  rhsContracting := [1]
  lhsNonContracting := [0, 1]
  rhsNonContracting := [0]
  lhsBatch := []
  rhsBatch := []
  wf := dot_S4x2048x1024_S512x1024_S4x2048x512_2_1_01_0_n_n_wf
def dot_S4x2048x512_S4x4096x512_S4x2048x4096_2_2_1_1_0_0 : DotDims S4x2048x512 S4x4096x512 S4x2048x4096 where
  lhsContracting := [2]
  rhsContracting := [2]
  lhsNonContracting := [1]
  rhsNonContracting := [1]
  lhsBatch := [0]
  rhsBatch := [0]
  wf := dot_S4x2048x512_S4x4096x512_S4x2048x4096_2_2_1_1_0_0_wf
def dot_S4x2048x4096_S4x4096x512_S4x2048x512_2_1_1_2_0_0 : DotDims S4x2048x4096 S4x4096x512 S4x2048x512 where
  lhsContracting := [2]
  rhsContracting := [1]
  lhsNonContracting := [1]
  rhsNonContracting := [2]
  lhsBatch := [0]
  rhsBatch := [0]
  wf := dot_S4x2048x4096_S4x4096x512_S4x2048x512_2_1_1_2_0_0_wf
def dot_S4x2048x512_S1024x512_S4x2048x1024_2_1_01_0_n_n : DotDims S4x2048x512 S1024x512 S4x2048x1024 where
  lhsContracting := [2]
  rhsContracting := [1]
  lhsNonContracting := [0, 1]
  rhsNonContracting := [0]
  lhsBatch := []
  rhsBatch := []
  wf := dot_S4x2048x512_S1024x512_S4x2048x1024_2_1_01_0_n_n_wf

class Facts : Prop extends Facts₀ where

variable [Facts]
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.Spec.lean ====
/-
  One query row of single-head softmax cross-attention between two linear layers, over the extended reals.

  A row `x` of 1024 numbers is mapped to a query `query d = (∑ q, x q · Wq d q) + bq d` of 512 numbers, scored
  against 4096 memory rows, `score j = ∑ d, query d · mem j d`, and the scores are turned into positive weights
  `weight j = exp (score j - max_j score j)` whose total is `norm`. The attended vector is the weighted mean of the
  memory rows, and there are two ways to write it:

    normalise first:  ∑ j, (weight j / norm) · mem j d
    normalise last:   (∑ j, weight j · mem j d) · (1 / norm)

  A last linear layer `out q = (∑ d, attended d · Wm q d) + bm q` follows. On the extended reals the two forms
  need not agree (a product does not distribute over a sum that meets an infinity), but they do as soon as every
  input is a finite real: then the scores, their maximum and the weights are finite reals, the weights are positive,
  so `norm` is a positive real, and the identity is the real one, `(∑ a_j) · c = ∑ a_j · c`.
-/
import proofs.«419843_j47476568490236_3_alg».proof.Proof.LibReal
import Idealize.ShloMosaic.Lib.ValueIdx

noncomputable section

namespace Cert.Attn

open Idealize.ShloMosaic Cert.LibReal
open scoped BigOperators

/-- The query: the row through the first linear layer. -/
def query (xrow : Fin 1024 → EReal) (wq : Fin 512 → Fin 1024 → EReal) (bq : Fin 512 → EReal) (d : Fin 512) : EReal :=
  (∑ q : Fin 1024, xrow q * wq d q) + bq d

/-- The score of memory row `j`: its inner product with the query. -/
def score (xrow : Fin 1024 → EReal) (mem : Fin 4096 → Fin 512 → EReal) (wq : Fin 512 → Fin 1024 → EReal)
    (bq : Fin 512 → EReal) (j : Fin 4096) : EReal :=
  ∑ d : Fin 512, query xrow wq bq d * mem j d

/-- The largest score, as a fold of the maximum from `-∞`. -/
def smax (xrow : Fin 1024 → EReal) (mem : Fin 4096 → Fin 512 → EReal) (wq : Fin 512 → Fin 1024 → EReal)
    (bq : Fin 512 → EReal) : EReal :=
  (Finset.univ : Finset (Fin 4096)).fold max ⊥ (score xrow mem wq bq)

/-- The unnormalised softmax weight of memory row `j`. -/
def weight (xrow : Fin 1024 → EReal) (mem : Fin 4096 → Fin 512 → EReal) (wq : Fin 512 → Fin 1024 → EReal)
    (bq : Fin 512 → EReal) (j : Fin 4096) : EReal :=
  Ideal.exp (score xrow mem wq bq j - smax xrow mem wq bq)

/-- The total weight. -/
def norm (xrow : Fin 1024 → EReal) (mem : Fin 4096 → Fin 512 → EReal) (wq : Fin 512 → Fin 1024 → EReal)
    (bq : Fin 512 → EReal) : EReal :=
  ∑ j : Fin 4096, weight xrow mem wq bq j

/-- The attended vector, the weights normalised AFTER the sum over the memory rows. -/
def attendedDeferred (xrow : Fin 1024 → EReal) (mem : Fin 4096 → Fin 512 → EReal) (wq : Fin 512 → Fin 1024 → EReal)
    (bq : Fin 512 → EReal) (d : Fin 512) : EReal :=
  (∑ j : Fin 4096, weight xrow mem wq bq j * mem j d) * Ideal.div 1 (norm xrow mem wq bq)

/-- The attended vector, each weight normalised BEFORE the sum over the memory rows. -/
def attendedNormalized (xrow : Fin 1024 → EReal) (mem : Fin 4096 → Fin 512 → EReal) (wq : Fin 512 → Fin 1024 → EReal)
    (bq : Fin 512 → EReal) (d : Fin 512) : EReal :=
  ∑ j : Fin 4096, Ideal.div (weight xrow mem wq bq j) (norm xrow mem wq bq) * mem j d

/-- The output row over the deferred form. -/
def outDeferred (xrow : Fin 1024 → EReal) (mem : Fin 4096 → Fin 512 → EReal) (wq : Fin 512 → Fin 1024 → EReal)
    (bq : Fin 512 → EReal) (wm : Fin 1024 → Fin 512 → EReal) (bm : Fin 1024 → EReal) (q : Fin 1024) : EReal :=
  (∑ d : Fin 512, attendedDeferred xrow mem wq bq d * wm q d) + bm q

/-- The output row over the normalised form. -/
def outNormalized (xrow : Fin 1024 → EReal) (mem : Fin 4096 → Fin 512 → EReal) (wq : Fin 512 → Fin 1024 → EReal)
    (bq : Fin 512 → EReal) (wm : Fin 1024 → Fin 512 → EReal) (bm : Fin 1024 → EReal) (q : Fin 1024) : EReal :=
  (∑ d : Fin 512, attendedNormalized xrow mem wq bq d * wm q d) + bm q

/-! ## Finiteness: every intermediate value is a finite real when the inputs are -/

section finite

variable {xrow : Fin 1024 → EReal} {mem : Fin 4096 → Fin 512 → EReal} {wq : Fin 512 → Fin 1024 → EReal}
  {bq : Fin 512 → EReal}

/-- The query of finite inputs is finite. -/
theorem isReal_query (hx : ∀ q, IsReal (xrow q)) (hwq : ∀ d q, IsReal (wq d q)) (hbq : ∀ d, IsReal (bq d))
    (d : Fin 512) : IsReal (query xrow wq bq d) :=
  (IsReal.sum_univ _ fun q => (hx q).mul (hwq d q)).add (hbq d)

/-- So is every score. -/
theorem isReal_score (hx : ∀ q, IsReal (xrow q)) (hm : ∀ j d, IsReal (mem j d)) (hwq : ∀ d q, IsReal (wq d q))
    (hbq : ∀ d, IsReal (bq d)) (j : Fin 4096) : IsReal (score xrow mem wq bq j) :=
  IsReal.sum_univ _ fun d => (isReal_query hx hwq hbq d).mul (hm j d)

/-- The largest of the 4096 scores is one of them, hence finite: the fold starts at `-∞` but meets a score. -/
theorem isReal_smax (hx : ∀ q, IsReal (xrow q)) (hm : ∀ j d, IsReal (mem j d)) (hwq : ∀ d q, IsReal (wq d q))
    (hbq : ∀ d, IsReal (bq d)) : IsReal (smax xrow mem wq bq) :=
  IsReal.fold_max Finset.univ ⟨⟨0, by decide⟩, Finset.mem_univ _⟩ _ fun j _ => isReal_score hx hm hwq hbq j

/-- Every weight is the exponential of a finite real: a positive real. -/
theorem isPosReal_weight (hx : ∀ q, IsReal (xrow q)) (hm : ∀ j d, IsReal (mem j d)) (hwq : ∀ d q, IsReal (wq d q))
    (hbq : ∀ d, IsReal (bq d)) (j : Fin 4096) : IsPosReal (weight xrow mem wq bq j) :=
  ((isReal_score hx hm hwq hbq j).sub (isReal_smax hx hm hwq hbq)).exp_pos

/-- The total weight is a sum of 4096 positive reals: a positive real, in particular not zero. -/
theorem isPosReal_norm (hx : ∀ q, IsReal (xrow q)) (hm : ∀ j d, IsReal (mem j d)) (hwq : ∀ d q, IsReal (wq d q))
    (hbq : ∀ d, IsReal (bq d)) : IsPosReal (norm xrow mem wq bq) :=
  IsPosReal.sum Finset.univ ⟨⟨0, by decide⟩, Finset.mem_univ _⟩ _ fun j _ => isPosReal_weight hx hm hwq hbq j

/-! ## The law: normalising after the sum is normalising before it -/

/-- For finite inputs the two attended vectors agree: with `weight j = w_j`, `norm = L > 0` and `mem j d = m_j` all
    real, `(∑ j, w_j · m_j) · (1 / L) = ∑ j, (w_j / L) · m_j` is distributivity in the reals. -/
theorem attended_eq (hx : ∀ q, IsReal (xrow q)) (hm : ∀ j d, IsReal (mem j d)) (hwq : ∀ d q, IsReal (wq d q))
    (hbq : ∀ d, IsReal (bq d)) (d : Fin 512) :
    attendedDeferred xrow mem wq bq d = attendedNormalized xrow mem wq bq d := by
  obtain ⟨L, hL, hnorm⟩ := isPosReal_norm hx hm hwq hbq
  have hL0 : L ≠ 0 := hL.ne'
  choose w hw using fun j => (isPosReal_weight hx hm hwq hbq j).isReal
  choose mr hmr using fun j => hm j d
  unfold attendedDeferred attendedNormalized
  rw [hnorm,
    sum_eq_coe_sum Finset.univ _ (fun j => w j * mr j) (fun j _ => by rw [hw j, hmr j, EReal.coe_mul]),
    sum_eq_coe_sum Finset.univ _ (fun j => w j / L * mr j)
      (fun j _ => by rw [hw j, hmr j, div_coe_coe _ hL0, EReal.coe_mul]),
    show (1 : EReal) = ((1 : ℝ) : EReal) from EReal.coe_one.symm, div_coe_coe _ hL0, ← EReal.coe_mul,
    Finset.sum_mul]
  exact congrArg _ (Finset.sum_congr rfl fun j _ => by ring)

/-- Hence the two output rows agree. -/
theorem out_eq (hx : ∀ q, IsReal (xrow q)) (hm : ∀ j d, IsReal (mem j d)) (hwq : ∀ d q, IsReal (wq d q))
    (hbq : ∀ d, IsReal (bq d)) (wm : Fin 1024 → Fin 512 → EReal) (bm : Fin 1024 → EReal) (q : Fin 1024) :
    outDeferred xrow mem wq bq wm bm q = outNormalized xrow mem wq bq wm bm q := by
  unfold outDeferred outNormalized
  exact congrArg (· + bm q) (Finset.sum_congr rfl fun d _ => by rw [attended_eq hx hm hwq hbq d])

end finite

/-! ## The same over whole arrays

The inputs as arrays over their literal shapes: `x : [4, 2048, 1024]`, `mem : [4, 4096, 512]`, `Wq : [512, 1024]`,
`bq : [512]`, `Wm : [1024, 512]`, `bm : [1024]`. Output element `(b, s, q)` is entry `q` of the output row computed
from row `(b, s)` of `x` and from batch `b` of `mem`. -/

section arrays

open Idealize.ShloMosaic.ValueIdx

variable (x0 : (⟨3, ![4, 2048, 1024]⟩ : Shape).Idx → EReal) (x1 : (⟨3, ![4, 4096, 512]⟩ : Shape).Idx → EReal)
  (x2 : (⟨2, ![512, 1024]⟩ : Shape).Idx → EReal) (x3 : (⟨1, ![512]⟩ : Shape).Idx → EReal)
  (x4 : (⟨2, ![1024, 512]⟩ : Shape).Idx → EReal) (x5 : (⟨1, ![1024]⟩ : Shape).Idx → EReal)

/-- Row `(b, s)` of `x`. -/
abbrev rowOf (b : Fin 4) (s : Fin 2048) : Fin 1024 → EReal := fun q => x0 (ix3 b s q)
/-- Batch `b` of the memory. -/
abbrev memOf (b : Fin 4) : Fin 4096 → Fin 512 → EReal := fun j d => x1 (ix3 b j d)
/-- The first layer's weight, by coordinates. -/
abbrev wqOf : Fin 512 → Fin 1024 → EReal := fun d q => x2 (ix2 d q)
/-- The first layer's bias, by coordinate. -/
abbrev bqOf : Fin 512 → EReal := fun d => x3 (ix1 d)
/-- The last layer's weight, by coordinates. -/
abbrev wmOf : Fin 1024 → Fin 512 → EReal := fun q d => x4 (ix2 q d)
/-- The last layer's bias, by coordinate. -/
abbrev bmOf : Fin 1024 → EReal := fun q => x5 (ix1 q)

/-- Output element `(b, s, q)`, normalising last. -/
def deferredAt (b : Fin 4) (s : Fin 2048) (q : Fin 1024) : EReal :=
  outDeferred (rowOf x0 b s) (memOf x1 b) (wqOf x2) (bqOf x3) (wmOf x4) (bmOf x5) q

/-- Output element `(b, s, q)`, normalising first. -/
def normalizedAt (b : Fin 4) (s : Fin 2048) (q : Fin 1024) : EReal :=
  outNormalized (rowOf x0 b s) (memOf x1 b) (wqOf x2) (bqOf x3) (wmOf x4) (bmOf x5) q

/-- The output array, normalising last. -/
def deferredArr : (⟨3, ![4, 2048, 1024]⟩ : Shape).Idx → EReal := fun i =>
  deferredAt x0 x1 x2 x3 x4 x5 ⟨(i 0).val, (i 0).isLt⟩ ⟨(i 1).val, (i 1).isLt⟩ ⟨(i 2).val, (i 2).isLt⟩

/-- The output array, normalising first. -/
def normalizedArr : (⟨3, ![4, 2048, 1024]⟩ : Shape).Idx → EReal := fun i =>
  normalizedAt x0 x1 x2 x3 x4 x5 ⟨(i 0).val, (i 0).isLt⟩ ⟨(i 1).val, (i 1).isLt⟩ ⟨(i 2).val, (i 2).isLt⟩

theorem deferredArr_ix3 (b : Fin 4) (s : Fin 2048) (q : Fin 1024) :
    deferredArr x0 x1 x2 x3 x4 x5 (ix3 b s q) = deferredAt x0 x1 x2 x3 x4 x5 b s q := rfl

theorem normalizedArr_ix3 (b : Fin 4) (s : Fin 2048) (q : Fin 1024) :
    normalizedArr x0 x1 x2 x3 x4 x5 (ix3 b s q) = normalizedAt x0 x1 x2 x3 x4 x5 b s q := rfl

/-- For finite `x`, `mem`, `Wq` and `bq` the two output arrays are one (the last layer's `Wm` and `bm` may be
    anything: they enter both forms the same way). -/
theorem arr_eq (h0 : ∀ i, IsReal (x0 i)) (h1 : ∀ i, IsReal (x1 i)) (h2 : ∀ i, IsReal (x2 i)) (h3 : ∀ i, IsReal (x3 i)) :
    deferredArr x0 x1 x2 x3 x4 x5 = normalizedArr x0 x1 x2 x3 x4 x5 :=
  funext fun _ => out_eq (fun _ => h0 _) (fun _ _ => h1 _) (fun _ _ => h2 _) (fun _ => h3 _) _ _ _

end arrays

end Cert.Attn

end
-- ==== Proof.KernelProducts.lean ====
/-
  The kernel's body read at one element of its output block.

  One grid point works on a block of 512 query rows against one batch of the memory. The body is a chain of
  whole-block operations: a matrix product with the transposed first weight plus the bias (the queries), a product
  with the memory contracted over the feature axis (the scores), the row maximum, the exponential of the difference
  (the weights), the row sum, a second product with the memory (the weighted sums), a multiplication by the
  reciprocal of the row sum, and a product with the transposed last weight. A change of float format is the
  identity on extended reals, and each matrix product into a zero accumulator is the plain sum over the contracted
  coordinate, so read at row `r` every stage is the matching quantity of ONE query row, with the attended vector in
  its normalise-last form.
-/
import proofs.«419843_j47476568490236_3_alg».proof.Proof.Spec
import proofs.«419843_j47476568490236_3_alg».proof.Proof.Gen.KernelIdeal.Skeleton
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx
open Cert.LibReal Cert.Attn
open scoped BigOperators

local macro "coords2" : tactic => `(tactic| (funext a; match a with | ⟨0, _⟩ => rfl | ⟨1, _⟩ => rfl))

/-! ## The four matrix products, each as a sum over its contracted coordinate -/

section products

/-! ### Rows of a [512, 1024] block times a [1024, 512] matrix -/

theorem lhsQ_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhsQ_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhsQ_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhsQ_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- Element `(r, d)` of the first product is `∑ k, L (r, k) · R (k, d)`. -/
theorem matmulQ_apply {φ₁ φ₂ : FTy} (L : FVec Ideal S512x1024 φ₁) (R : FVec Ideal S1024x512 φ₂) (r : Fin 512) (d : Fin 512) :
    matmul dot_S512x1024_S1024x512_S512x512_1_0_0_1_n_n none L R (constant S512x512 .f32 0x00000000#32) (ix2 r d)
      = ∑ k : Fin 1024, L (ix2 r k) * R (ix2 k d) := by
  refine (Ideal.matmul_constant_zero_apply dot_S512x1024_S1024x512_S512x512_1_0_0_1_n_n none L R (ix2 r d)).trans ?_
  rw [← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 r d) ((ValueIdx.contrEquiv1 dot_S512x1024_S1024x512_S512x512_1_0_0_1_n_n 1024 rfl rfl).symm k) = ix2 r k := funext fun a => Fin.ext (by
    match a with
    | ⟨0, _⟩ => exact lhsQ_0 _ _
    | ⟨1, _⟩ => exact (lhsQ_1 _ _).trans hk)
  have er : dot_S512x1024_S1024x512_S512x512_1_0_0_1_n_n.rhsIdx (ix2 r d) ((ValueIdx.contrEquiv1 dot_S512x1024_S1024x512_S512x512_1_0_0_1_n_n 1024 rfl rfl).symm k) = ix2 k d := funext fun a => Fin.ext (by
    match a with
    | ⟨0, _⟩ => exact (rhsQ_0 _ _).trans hk
    | ⟨1, _⟩ => exact rhsQ_1 _ _)
  rw [el, er]

/-! ### Rows of a [512, 512] block times the rows of a [4096, 512] matrix -/

theorem lhsS_0 (i : S512x4096.Idx) (q : dot_S512x512_S4096x512_S512x4096_1_1_0_0_n_n.contr.Idx) :
    (dot_S512x512_S4096x512_S512x4096_1_1_0_0_n_n.lhsIdx i q 0).val = (i 0).val := by
  unfold DotDims.lhsIdx
  rw [dif_neg (show ¬(0 : Fin S512x512.rank) ∈ dot_S512x512_S4096x512_S512x4096_1_1_0_0_n_n.lhsBatch by decide), dif_pos (show (0 : Fin S512x512.rank) ∈ dot_S512x512_S4096x512_S512x4096_1_1_0_0_n_n.lhsNonContracting by decide)]
  rfl
theorem lhsS_1 (i : S512x4096.Idx) (q : dot_S512x512_S4096x512_S512x4096_1_1_0_0_n_n.contr.Idx) :
    (dot_S512x512_S4096x512_S512x4096_1_1_0_0_n_n.lhsIdx i q 1).val = (q ⟨0, by decide⟩).val :=
  dot_S512x512_S4096x512_S512x4096_1_1_0_0_n_n.lhsIdx_val_of_single rfl i q
theorem rhsS_0 (i : S512x4096.Idx) (q : dot_S512x512_S4096x512_S512x4096_1_1_0_0_n_n.contr.Idx) :
    (dot_S512x512_S4096x512_S512x4096_1_1_0_0_n_n.rhsIdx i q 0).val = (i 1).val := by
  unfold DotDims.rhsIdx
  rw [dif_neg (show ¬(0 : Fin S4096x512.rank) ∈ dot_S512x512_S4096x512_S512x4096_1_1_0_0_n_n.rhsBatch by decide), dif_pos (show (0 : Fin S4096x512.rank) ∈ dot_S512x512_S4096x512_S512x4096_1_1_0_0_n_n.rhsNonContracting by decide)]
  rfl
theorem rhsS_1 (i : S512x4096.Idx) (q : dot_S512x512_S4096x512_S512x4096_1_1_0_0_n_n.contr.Idx) :
    (dot_S512x512_S4096x512_S512x4096_1_1_0_0_n_n.rhsIdx i q 1).val = (q ⟨0, by decide⟩).val :=
  dot_S512x512_S4096x512_S512x4096_1_1_0_0_n_n.rhsIdx_val_of_single rfl i q

/-- Element `(r, j)` of the second product is `∑ k, L (r, k) · R (j, k)`: both operands contract their last axis. -/
theorem matmulS_apply {φ₁ φ₂ : FTy} (L : FVec Ideal S512x512 φ₁) (R : FVec Ideal S4096x512 φ₂) (r : Fin 512) (j : Fin 4096) :
    matmul dot_S512x512_S4096x512_S512x4096_1_1_0_0_n_n none L R (constant S512x4096 .f32 0x00000000#32) (ix2 r j)
      = ∑ k : Fin 512, L (ix2 r k) * R (ix2 j k) := by
  refine (Ideal.matmul_constant_zero_apply dot_S512x512_S4096x512_S512x4096_1_1_0_0_n_n none L R (ix2 r j)).trans ?_
  rw [← Equiv.sum_comp (ValueIdx.contrEquiv1 dot_S512x512_S4096x512_S512x4096_1_1_0_0_n_n 512 rfl rfl).symm]
  refine Finset.sum_congr rfl fun k _ => ?_
  have hk := ValueIdx.contrEquiv1_symm_val dot_S512x512_S4096x512_S512x4096_1_1_0_0_n_n 512 rfl rfl k
  have el : dot_S512x512_S4096x512_S512x4096_1_1_0_0_n_n.lhsIdx (ix2 r j) ((ValueIdx.contrEquiv1 dot_S512x512_S4096x512_S512x4096_1_1_0_0_n_n 512 rfl rfl).symm k) = ix2 r k := funext fun a => Fin.ext (by
    match a with
    | ⟨0, _⟩ => exact lhsS_0 _ _
    | ⟨1, _⟩ => exact (lhsS_1 _ _).trans hk)
  have er : dot_S512x512_S4096x512_S512x4096_1_1_0_0_n_n.rhsIdx (ix2 r j) ((ValueIdx.contrEquiv1 dot_S512x512_S4096x512_S512x4096_1_1_0_0_n_n 512 rfl rfl).symm k) = ix2 j k := funext fun a => Fin.ext (by
    match a with
    | ⟨0, _⟩ => exact rhsS_0 _ _
    | ⟨1, _⟩ => exact (rhsS_1 _ _).trans hk)
  rw [el, er]

/-! ### Rows of a [512, 4096] block times a [4096, 512] matrix -/

theorem lhsA_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem lhsA_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhsA_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhsA_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- Element `(r, d)` of the third product is `∑ j, L (r, j) · R (j, d)`. -/
theorem matmulA_apply {φ₁ φ₂ : FTy} (L : FVec Ideal S512x4096 φ₁) (R : FVec Ideal S4096x512 φ₂) (r : Fin 512) (d : Fin 512) :
    matmul dot_S512x4096_S4096x512_S512x512_1_0_0_1_n_n none L R (constant S512x512 .f32 0x00000000#32) (ix2 r d)
      = ∑ k : Fin 4096, L (ix2 r k) * R (ix2 k d) := by
  refine (Ideal.matmul_constant_zero_apply dot_S512x4096_S4096x512_S512x512_1_0_0_1_n_n none L R (ix2 r d)).trans ?_
  rw [← Equiv.sum_comp (ValueIdx.contrEquiv1 dot_S512x4096_S4096x512_S512x512_1_0_0_1_n_n 4096 rfl rfl).symm]
  refine Finset.sum_congr rfl fun k _ => ?_
  have hk := ValueIdx.contrEquiv1_symm_val dot_S512x4096_S4096x512_S512x512_1_0_0_1_n_n 4096 rfl rfl k
  have el : dot_S512x4096_S4096x512_S512x512_1_0_0_1_n_n.lhsIdx (ix2 r d) ((ValueIdx.contrEquiv1 dot_S512x4096_S4096x512_S512x512_1_0_0_1_n_n 4096 rfl rfl).symm k) = ix2 r k := funext fun a => Fin.ext (by
    match a with
    | ⟨0, _⟩ => exact lhsA_0 _ _
    | ⟨1, _⟩ => exact (lhsA_1 _ _).trans hk)
  have er : dot_S512x4096_S4096x512_S512x512_1_0_0_1_n_n.rhsIdx (ix2 r d) ((ValueIdx.contrEquiv1 dot_S512x4096_S4096x512_S512x512_1_0_0_1_n_n 4096 rfl rfl).symm k) = ix2 k d := funext fun a => Fin.ext (by
    match a with
    | ⟨0, _⟩ => exact (rhsA_0 _ _).trans hk
    | ⟨1, _⟩ => exact rhsA_1 _ _)
  rw [el, er]

/-! ### Rows of a [512, 512] block times a [512, 1024] matrix -/

theorem lhsO_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhsO_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhsO_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhsO_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- Element `(r, q)` of the last product is `∑ d, L (r, d) · R (d, q)`. -/
theorem matmulO_apply {φ₁ φ₂ : FTy} (L : FVec Ideal S512x512 φ₁) (R : FVec Ideal S512x1024 φ₂) (r : Fin 512) (q : Fin 1024) :
    matmul dot_S512x512_S512x1024_S512x1024_1_0_0_1_n_n none L R (constant S512x1024 .f32 0x00000000#32) (ix2 r q)
      = ∑ k : Fin 512, L (ix2 r k) * R (ix2 k q) := by
  refine (Ideal.matmul_constant_zero_apply dot_S512x512_S512x1024_S512x1024_1_0_0_1_n_n none L R (ix2 r q)).trans ?_
  rw [← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 r q) ((ValueIdx.contrEquiv1 dot_S512x512_S512x1024_S512x1024_1_0_0_1_n_n 512 rfl rfl).symm k) = ix2 r k := funext fun a => Fin.ext (by
    match a with
    | ⟨0, _⟩ => exact lhsO_0 _ _
    | ⟨1, _⟩ => exact (lhsO_1 _ _).trans hk)
  have er : dot_S512x512_S512x1024_S512x1024_1_0_0_1_n_n.rhsIdx (ix2 r q) ((ValueIdx.contrEquiv1 dot_S512x512_S512x1024_S512x1024_1_0_0_1_n_n 512 rfl rfl).symm k) = ix2 k q := funext fun a => Fin.ext (by
    match a with
    | ⟨0, _⟩ => exact (rhsO_0 _ _).trans hk
    | ⟨1, _⟩ => exact rhsO_1 _ _)
  rw [el, er]

end products

end Cert.KernelIdeal.Row

end
-- ==== Proof.KernelRow.lean ====
/-
  The kernel's body as five stages, each read at one row.

  The body's one computed value is cut where its mathematics cuts: the queries of the block's 512 rows, their scores
  against the 4096 memory rows, the softmax weights, the attended vectors (sum first, reciprocal of the total
  after), and the last linear layer without its bias. Each stage is a definition over the values it reads, their
  composition is the body's value, and at row `r` each is the matching quantity of that one row.
-/
import proofs.«419843_j47476568490236_3_alg».proof.Proof.KernelProducts

noncomputable section

namespace Cert.KernelIdeal.Row

open Cert.KernelIdeal Cert.KernelIdeal.Gen Idealize.ShloMosaic Idealize.ShloMosaic.ValueIdx
open Cert.LibReal Cert.Attn
open scoped BigOperators

/-! ## Layout steps read at an index -/

/-- Dropping the leading unit axis of a [1, 512, 1024] block. -/
theorem cast_x (v0 : FVec Ideal S1x512x1024 .f32) (r : Fin 512) (q : Fin 1024) :
    shapeCast S512x1024 v0 shapeCasts_S1x512x1024_S512x1024 (ix2 r q) = v0 (ix3 (0 : Fin 1) r q) :=
  shapeCast_apply v0 _ (ix2 r q) (ix3 (0 : Fin 1) r q) (by
    rw [Shape.rowMajor_val_three, Shape.rowMajor_val_two]
    show (0 * 512 + r.val) * 1024 + q.val = r.val * 1024 + q.val
    omega)

/-- Dropping the leading unit axis of a [1, 4096, 512] block. -/
theorem cast_mem (v : FVec Ideal S1x4096x512 .bf16) (j : Fin 4096) (d : Fin 512) :
    shapeCast S4096x512 v shapeCasts_S1x4096x512_S4096x512 (ix2 j d) = v (ix3 (0 : Fin 1) j d) :=
  shapeCast_apply v _ (ix2 j d) (ix3 (0 : Fin 1) j d) (by
    rw [Shape.rowMajor_val_three, Shape.rowMajor_val_two]
    show (0 * 4096 + j.val) * 512 + d.val = j.val * 512 + d.val
    omega)

/-- A bias of 512 entries laid along the rows of a [512, 512] block. -/
theorem bias_q (v6 : FVec Ideal S512 .f32) (r d : Fin 512) :
    broadcastTo S512x512 (shapeCast S1x512 v6 shapeCasts_S512_S1x512) broadcasts_S1x512_S512x512 (ix2 r d) = v6 (ix1 d) := by
  refine (broadcastTo_apply _ _ (ix2 r d) (ix2 (0 : Fin 1) d) (fun a => match a with
    | ⟨0, _⟩ => by show (0 : ℕ) = (if (1 : Nat) = 1 then 0 else r.val); rw [if_pos rfl]
    | ⟨1, _⟩ => by show d.val = (if (512 : Nat) = 1 then 0 else d.val); rw [if_neg (by decide)])).trans ?_
  exact shapeCast_apply v6 _ (ix2 (0 : Fin 1) d) (ix1 d) (by
    rw [Shape.rowMajor_val_one, Shape.rowMajor_val_two]; show d.val = 0 * 512 + d.val; omega)

/-- A vector of 512 row values as a column. -/
theorem col_apply (v : FVec Ideal S512 .f32) (r : Fin 512) :
    shapeCast S512x1 v shapeCasts_S512_S512x1 (ix2 r (0 : Fin 1)) = v (ix1 r) :=
  shapeCast_apply v _ (ix2 r (0 : Fin 1)) (ix1 r) (by
    rw [Shape.rowMajor_val_one, Shape.rowMajor_val_two]; show r.val = r.val * 1 + 0; omega)

/-- A column repeated along 4096 lanes. -/
theorem bcast_col_4096 (c : FVec Ideal S512x1 .f32) (r : Fin 512) (j : Fin 4096) :
    broadcastTo S512x4096 c broadcasts_S512x1_S512x4096 (ix2 r j) = c (ix2 r (0 : Fin 1)) :=
  broadcastTo_apply c _ (ix2 r j) (ix2 r (0 : Fin 1)) (fun a => match a with
    | ⟨0, _⟩ => by show r.val = (if (512 : Nat) = 1 then 0 else r.val); rw [if_neg (by decide)]
    | ⟨1, _⟩ => by show (0 : ℕ) = (if (1 : Nat) = 1 then 0 else j.val); rw [if_pos rfl])

/-- A column repeated along 512 lanes. -/
theorem bcast_col_512 (c : FVec Ideal S512x1 .f32) (r : Fin 512) (d : Fin 512) :
    broadcastTo S512x512 c broadcasts_S512x1_S512x512 (ix2 r d) = c (ix2 r (0 : Fin 1)) :=
  broadcastTo_apply c _ (ix2 r d) (ix2 r (0 : Fin 1)) (fun a => match a with
    | ⟨0, _⟩ => by show r.val = (if (512 : Nat) = 1 then 0 else r.val); rw [if_neg (by decide)]
    | ⟨1, _⟩ => by show (0 : ℕ) = (if (1 : Nat) = 1 then 0 else d.val); rw [if_pos rfl])

/-! ## The two lane reductions at a row -/

/-- Row `r` with lane `k` put back is `(r, k)`. -/
theorem lift_row (h : S512x4096.Reduces [1] S512) (r : Fin 512) (k : Fin (S512x4096.size 1)) :
    h.lift (ix1 r) k = ix2 r (⟨k.val, k.isLt⟩ : Fin 4096) := by
  funext c; apply Fin.ext
  fin_cases c <;> rfl

/-- The lane maximum from the word for `-∞` is the fold of the maximum from `-∞` over the row. -/
theorem rowmax_apply (v : FVec Ideal S512x4096 .f32) (r : Fin 512) :
    multiReduction .maximumf [1] S512 v 0xFF800000#32 reduces_S512x4096_S512 (.inl rfl) rfl (ix1 r)
      = (Finset.univ : Finset (Fin 4096)).fold max ⊥ (fun j => v (ix2 r j)) := by
  refine (Ideal.multiReduction_maximumf_single v 0xFF800000#32 reduces_S512x4096_S512 (.inl rfl) rfl (ix1 r)).trans ?_
  show Finset.fold max (Ideal.ofBits .f32 0xFF800000#32) _ (Finset.univ : Finset (Fin 4096)) = _
  rw [ofBits_neg_inf]
  exact congrArg (fun f => Finset.fold max (⊥ : EReal) f (Finset.univ : Finset (Fin 4096)))
    (funext fun k => congrArg v (lift_row _ r k))

/-- The lane sum from the word for zero is the sum over the row. -/
theorem rowsum_apply (v : FVec Ideal S512x4096 .f32) (r : Fin 512) :
    multiReduction .add [1] S512 v 0x00000000#32 reduces_S512x4096_S512 (.inl rfl) rfl (ix1 r)
      = ∑ j : Fin 4096, v (ix2 r j) := by
  refine (Ideal.multiReduction_add_single v 0x00000000#32 reduces_S512x4096_S512 (.inl rfl) rfl (ix1 r)).trans ?_
  exact Finset.sum_congr rfl fun k _ => congrArg v (lift_row _ r k)

/-- The f32 word `0x3F800000` denotes one. -/
theorem one_word : Ideal.ofBits .f32 0x3F800000#32 = 1 := IdealRules.sign_bit.ideal_onePat .f32

/-! ## The stages -/

section stages

variable (v0 : FVec Ideal S1x512x1024 .f32) (v3 : FVec Ideal S1024x512 .bf16) (v6 : FVec Ideal S512 .f32)
  (v11 : FVec Ideal S1x4096x512 .bf16) (v22 : FVec Ideal S1x4096x512 .bf16) (v29 : FVec Ideal S512x1024 .bf16)

/-- The block's queries: its rows through the first linear layer. -/
def queryBlk : FVec Ideal S512x512 .f32 :=
  addf (matmul dot_S512x1024_S1024x512_S512x512_1_0_0_1_n_n none (truncf .bf16 (shapeCast S512x1024 v0 shapeCasts_S1x512x1024_S512x1024) bitsLt_bf16_f32) (shapeCast S1024x512 v3 shapeCasts_S1024x512_S1024x512) (constant S512x512 .f32 0x00000000#32))
    (broadcastTo S512x512 (shapeCast S1x512 v6 shapeCasts_S512_S1x512) broadcasts_S1x512_S512x512)

/-- The scores of the queries `v9` against the memory rows. -/
def scoreBlk (v9 : FVec Ideal S512x512 .f32) : FVec Ideal S512x4096 .f32 :=
  matmul dot_S512x512_S4096x512_S512x4096_1_1_0_0_n_n none (truncf .bf16 v9 bitsLt_bf16_f32) (shapeCast S4096x512 v11 shapeCasts_S1x4096x512_S4096x512) (constant S512x4096 .f32 0x00000000#32)

/-- The softmax weights of the scores `v13`: the exponential of each score less its row's maximum. -/
def weightBlk (v13 : FVec Ideal S512x4096 .f32) : FVec Ideal S512x4096 .f32 :=
  exp (subf v13 (broadcastTo S512x4096 (shapeCast S512x1 (multiReduction .maximumf [1] S512 v13 0xFF800000#32 reduces_S512x4096_S512 (.inl rfl) rfl) shapeCasts_S512_S512x1) broadcasts_S512x1_S512x4096))

/-- The attended vectors from the weights `v18`: the weighted sums of the memory rows, then the reciprocal of the row total. -/
def attBlk (v18 : FVec Ideal S512x4096 .f32) : FVec Ideal S512x512 .f32 :=
  mulf (matmul dot_S512x4096_S4096x512_S512x512_1_0_0_1_n_n none (truncf .bf16 v18 bitsLt_bf16_f32) (shapeCast S4096x512 v22 shapeCasts_S1x4096x512_S4096x512) (constant S512x512 .f32 0x00000000#32))
    (broadcastTo S512x512 (divf (broadcast S512x1 (Scalar.ofBits (F := Ideal) .f32 0x3F800000#32)) (shapeCast S512x1 (multiReduction .add [1] S512 v18 0x00000000#32 reduces_S512x4096_S512 (.inl rfl) rfl) shapeCasts_S512_S512x1)) broadcasts_S512x1_S512x512)

/-- The last linear layer, without its bias, of the attended vectors `v28`. -/
def outBlk (v28 : FVec Ideal S512x512 .f32) : FVec Ideal S512x1024 .f32 :=
  matmul dot_S512x512_S512x1024_S512x1024_1_0_0_1_n_n none (truncf .bf16 v28 bitsLt_bf16_f32) (shapeCast S512x1024 v29 shapeCasts_S512x1024_S512x1024) (constant S512x1024 .f32 0x00000000#32)

/-- The body's computed value is the composition of the five stages. -/
theorem pay2_stages :
    k0_pay2 (F := Ideal) v0 v3 v6 v11 v22 v29 = outBlk v29 (attBlk v22 (weightBlk (scoreBlk v11 (queryBlk v0 v3 v6)))) := rfl

/-- Query `(r, d)`. -/
theorem queryBlk_at (r d : Fin 512) :
    queryBlk v0 v3 v6 (ix2 r d)
      = query (fun q => v0 (ix3 (0 : Fin 1) r q)) (fun d q => v3 (ix2 q d)) (fun d => v6 (ix1 d)) d := by
  unfold queryBlk query
  refine (congrArg₂ (· + ·) (matmulQ_apply _ _ r d) (bias_q v6 r d)).trans ?_
  refine congrArg (· + v6 (ix1 d)) (Finset.sum_congr rfl fun k _ => ?_)
  show (shapeCast S512x1024 v0 shapeCasts_S1x512x1024_S512x1024) (ix2 r k) * (shapeCast S1024x512 v3 shapeCasts_S1024x512_S1024x512) (ix2 k d) = _
  rw [cast_x, shapeCast_self]

/-- Score `(r, j)` of queries `v9`. -/
theorem scoreBlk_at (v9 : FVec Ideal S512x512 .f32) (r : Fin 512) (j : Fin 4096) :
    scoreBlk v11 v9 (ix2 r j) = ∑ d : Fin 512, v9 (ix2 r d) * v11 (ix3 (0 : Fin 1) j d) := by
  unfold scoreBlk
  refine (matmulS_apply _ _ r j).trans (Finset.sum_congr rfl fun k _ => ?_)
  show v9 (ix2 r k) * (shapeCast S4096x512 v11 shapeCasts_S1x4096x512_S4096x512) (ix2 j k) = _
  rw [cast_mem]

/-- Weight `(r, j)` of scores `v13`. -/
theorem weightBlk_at (v13 : FVec Ideal S512x4096 .f32) (r : Fin 512) (j : Fin 4096) :
    weightBlk v13 (ix2 r j)
      = Ideal.exp (v13 (ix2 r j) - (Finset.univ : Finset (Fin 4096)).fold max ⊥ (fun j' => v13 (ix2 r j'))) := by
  unfold weightBlk
  show Ideal.exp (v13 (ix2 r j) - (broadcastTo S512x4096 (shapeCast S512x1 (multiReduction .maximumf [1] S512 v13 0xFF800000#32 reduces_S512x4096_S512 (.inl rfl) rfl) shapeCasts_S512_S512x1) broadcasts_S512x1_S512x4096) (ix2 r j)) = _
  rw [bcast_col_4096, col_apply, rowmax_apply]

/-- Attended `(r, d)` of weights `v18`. -/
theorem attBlk_at (v18 : FVec Ideal S512x4096 .f32) (r d : Fin 512) :
    attBlk v22 v18 (ix2 r d)
      = (∑ j : Fin 4096, v18 (ix2 r j) * v22 (ix3 (0 : Fin 1) j d)) * Ideal.div 1 (∑ j : Fin 4096, v18 (ix2 r j)) := by
  unfold attBlk
  refine (congrArg₂ (· * ·) (matmulA_apply _ _ r d) (bcast_col_512 _ r d)).trans ?_
  show _ * Ideal.div (Ideal.ofBits .f32 0x3F800000#32) ((shapeCast S512x1 (multiReduction .add [1] S512 v18 0x00000000#32 reduces_S512x4096_S512 (.inl rfl) rfl) shapeCasts_S512_S512x1) (ix2 r (0 : Fin 1))) = _
  rw [col_apply, rowsum_apply, one_word]
  refine congrArg (· * _) (Finset.sum_congr rfl fun k _ => ?_)
  show v18 (ix2 r k) * (shapeCast S4096x512 v22 shapeCasts_S1x4096x512_S4096x512) (ix2 k d) = _
  rw [cast_mem]

/-- Output `(r, q)` of attended vectors `v28`, before the bias. -/
theorem outBlk_at (v28 : FVec Ideal S512x512 .f32) (r : Fin 512) (q : Fin 1024) :
    outBlk v29 v28 (ix2 r q) = ∑ d : Fin 512, v28 (ix2 r d) * v29 (ix2 d q) := by
  unfold outBlk
  refine (matmulO_apply _ _ r q).trans (Finset.sum_congr rfl fun k _ => ?_)
  show v28 (ix2 r k) * (shapeCast S512x1024 v29 shapeCasts_S512x1024_S512x1024) (ix2 k q) = _
  rw [shapeCast_self]

/-- THE BODY'S VALUE at `(r, q)`, both loads of the memory block the same: the last layer (before its bias) of the
    row's attended vector in its normalise-last form. The row is row `r` of the block, the memory the block's, the
    first weight enters transposed. -/
theorem pay2_at (r : Fin 512) (q : Fin 1024) :
    k0_pay2 (F := Ideal) v0 v3 v6 v11 v11 v29 (ix2 r q)
      = ∑ d : Fin 512, attendedDeferred (fun q' => v0 (ix3 (0 : Fin 1) r q')) (fun j d => v11 (ix3 (0 : Fin 1) j d))
          (fun d q' => v3 (ix2 q' d)) (fun d => v6 (ix1 d)) d * v29 (ix2 d q) := by
  rw [pay2_stages, outBlk_at]
  refine Finset.sum_congr rfl fun d _ => congrArg (· * v29 (ix2 d q)) ?_
  rw [attBlk_at]
  have hS : ∀ j, scoreBlk v11 (queryBlk v0 v3 v6) (ix2 r j)
      = score (fun q' => v0 (ix3 (0 : Fin 1) r q')) (fun j d => v11 (ix3 (0 : Fin 1) j d)) (fun d q' => v3 (ix2 q' d)) (fun d => v6 (ix1 d)) j := fun j => by
    rw [scoreBlk_at]; unfold score
    exact Finset.sum_congr rfl fun k _ => by rw [queryBlk_at]
  have hW : ∀ j, weightBlk (scoreBlk v11 (queryBlk v0 v3 v6)) (ix2 r j)
      = weight (fun q' => v0 (ix3 (0 : Fin 1) r q')) (fun j d => v11 (ix3 (0 : Fin 1) j d)) (fun d q' => v3 (ix2 q' d)) (fun d => v6 (ix1 d)) j := fun j => by
    rw [weightBlk_at]; unfold weight smax
    simp only [hS]
  unfold attendedDeferred Attn.norm
  simp only [hW]

end stages

end Cert.KernelIdeal.Row

end
-- ==== Proof.KernelBlocks.lean ====
/-
  From the kernel's blocks to its output array.

  The grid has 16 points; point `t` works on batch `t / 4` and on rows `(t % 4) · 512 … (t % 4) · 512 + 511` of it.
  Its first window stages that block of `x`, its second the whole batch `t / 4` of the memory (converted to a
  narrower float format before the region: the identity on extended reals), the third and fifth the two weights,
  transposed and converted before the region, the fourth and sixth the two biases; the last window is written back
  at every point. So element `(0, r, q)` of what point `t` writes back is the output row of row
  `(t / 4, (t % 4) · 512 + r)` of `x` at `q`, normalising last; the sixteen blocks tile the output array; and after
  the run the array is that function of the argument arrays everywhere.
-/
import proofs.«419843_j47476568490236_3_alg».proof.Proof.Gen.KernelIdeal.Value
import proofs.«419843_j47476568490236_3_alg».proof.Proof.KernelRow
import Idealize.ShloMosaic.Lib.StableHlo.Run

noncomputable section

namespace Cert.KernelIdeal.Blocks

open Cert.KernelIdeal Cert.KernelIdeal.Gen Cert.KernelIdeal.Row Idealize.ShloMosaic Idealize.ShloMosaic.TcCoe Idealize.SL.Sem
open Idealize.ShloMosaic.ValueIdx Cert.LibReal Cert.Attn
open Idealize.ShloMosaic.Pipeline (Dat)

variable (m : (ℓ : Loc nD τ sig) → Buf (Elt Ideal) ℓ) (ρ : Dev nD → PrngReg)

/-! ## The argument arrays, and the array the output ends as -/

abbrev a0 (c : Dev nD) : S4x2048x1024.Idx → EReal := m ((c : Thread nD τ).loc main_arg0)
abbrev a1 (c : Dev nD) : S4x4096x512.Idx → EReal := m ((c : Thread nD τ).loc main_arg1)
abbrev a2 (c : Dev nD) : S512x1024.Idx → EReal := m ((c : Thread nD τ).loc main_arg2)
abbrev a3 (c : Dev nD) : S512.Idx → EReal := m ((c : Thread nD τ).loc main_arg3)
abbrev a4 (c : Dev nD) : S1024x512.Idx → EReal := m ((c : Thread nD τ).loc main_arg4)
abbrev a5 (c : Dev nD) : S1024.Idx → EReal := m ((c : Thread nD τ).loc main_arg5)

/-- The output array as one function of the argument arrays: every row's output, normalising last. -/
abbrev G (c : Dev nD) : S4x2048x1024.Idx → EReal :=
  deferredArr (a0 m c) (a1 m c) (a2 m c) (a3 m c) (a4 m c) (a5 m c)

/-! ## What the host operations before the region leave -/

/-- The memory as the region finds it: the launch memory's (its change of format is the identity). -/
theorem V_mem (c : Dev nD) : (V m c main_v4 : S4x4096x512.Idx → EReal) = a1 m c := by
  dsimp only [Gen.V, Gen.hostOps0]; after_results; rfl

/-- The first weight as the region finds it: transposed. -/
theorem V_wq (c : Dev nD) :
    (V m c main_v1 : S1024x512.Idx → EReal) = transpose S1024x512 [1, 0] (a2 m c) transposes_S512x1024_S1024x512_1_0 := by
  dsimp only [Gen.V, Gen.hostOps0]; after_results; rfl

/-- The last weight as the region finds it: transposed. -/
theorem V_wm (c : Dev nD) :
    (V m c main_v3 : S512x1024.Idx → EReal) = transpose S512x1024 [1, 0] (a4 m c) transposes_S1024x512_S512x1024_1_0 := by
  dsimp only [Gen.V, Gen.hostOps0]; after_results; rfl

/-! ## Where each window's block sits -/

/-- The batch of point `t`. -/
def bOf (t : Fin cfg0.N) : Fin 4 := ⟨t.val / 4, by have := t.isLt; have hN : cfg0.N = 16 := N_0; omega⟩
/-- The array row of row `r` of point `t`'s block. -/
def sOf (t : Fin cfg0.N) (r : Fin 512) : Fin 2048 := ⟨t.val % 4 * 512 + r.val, by have := r.isLt; omega⟩

/-- The printed index maps, decided over the sixteen points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val / 4 ∧ win0_6.index t (1 : Fin 3) = t.val % 4 ∧ win0_6.index t (2 : Fin 3) = 0 :=
  (by decide +kernel : ∀ t : Fin grid0.N, _)

/-- Each input window's block at a point, at its literal type. -/
abbrev blk0 (c : Dev nD) (t : Fin cfg0.N) : Vec Ideal S1x512x1024 .f32 := iblk m c 0 t
abbrev blk1 (c : Dev nD) (t : Fin cfg0.N) : Vec Ideal S1x4096x512 .bf16 := iblk m c 1 t
abbrev blk2 (c : Dev nD) (t : Fin cfg0.N) : Vec Ideal S1024x512 .bf16 := iblk m c 2 t
abbrev blk3 (c : Dev nD) (t : Fin cfg0.N) : Vec Ideal S512 .f32 := iblk m c 3 t
abbrev blk4 (c : Dev nD) (t : Fin cfg0.N) : Vec Ideal S512x1024 .bf16 := iblk m c 4 t
abbrev blk5 (c : Dev nD) (t : Fin cfg0.N) : Vec Ideal S1024 .f32 := iblk m c 5 t

/-- Row `r` of the block of `x` is row `(t / 4, (t % 4) · 512 + r)` of `x`. -/
theorem blk0_at (c : Dev nD) (t : Fin cfg0.N) (r : Fin 512) (q : Fin 1024) :
    blk0 m c t (ix3 (0 : Fin 1) r q) = a0 m c (ix3 (bOf t) (sOf t r) q) := by
  obtain ⟨e0, e1, e2, -⟩ := idx_facts t
  show V m c main_arg0 (((cfg0.win 0).blk t).view.emb (ix3 (0 : Fin 1) r q)) = _
  refine (congrFun (V_main_arg0 m c) _).trans ?_
  refine congrArg (a0 m c) (funext fun a => Fin.ext ?_)
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 1024 + 1 * q.val = q.val; omega

/-- The memory block is batch `t / 4` of the memory. -/
theorem blk1_at (c : Dev nD) (t : Fin cfg0.N) (j : Fin 4096) (d : Fin 512) :
    blk1 m c t (ix3 (0 : Fin 1) j d) = a1 m c (ix3 (bOf t) j d) := by
  obtain ⟨-, -, -, e0, e1, e2, -⟩ := idx_facts t
  show V m c main_v4 (((cfg0.win 1).blk t).view.emb (ix3 (0 : Fin 1) j d)) = _
  refine (congrFun (V_mem m c) _).trans ?_
  refine congrArg (a1 m c) (funext fun a => Fin.ext ?_)
  match a with
  | ⟨0, _⟩ => show win0_1.index t (0 : Fin 3) * 1 + 1 * 0 = t.val / 4; omega
  | ⟨1, _⟩ => show win0_1.index t (1 : Fin 3) * 4096 + 1 * j.val = j.val; omega
  | ⟨2, _⟩ => show win0_1.index t (2 : Fin 3) * 512 + 1 * d.val = d.val; omega

/-- The staged first weight at `(q, d)` is the weight at `(d, q)`. -/
theorem blk2_at (c : Dev nD) (t : Fin cfg0.N) (q : Fin 1024) (d : Fin 512) :
    blk2 m c t (ix2 q d) = a2 m c (ix2 d q) := by
  obtain ⟨-, -, -, -, -, -, e0, e1, -⟩ := idx_facts t
  show V m c main_v1 (((cfg0.win 2).blk t).view.emb (ix2 q d)) = _
  have he : ((cfg0.win 2).blk t).view.emb (ix2 q d) = ix2 q d := funext fun a => Fin.ext (by
    match a with
    | ⟨0, _⟩ => show win0_2.index t (0 : Fin 2) * 1024 + 1 * q.val = q.val; omega
    | ⟨1, _⟩ => show win0_2.index t (1 : Fin 2) * 512 + 1 * d.val = d.val; omega)
  refine (congrArg (V m c main_v1) he).trans ?_
  refine (congrFun (V_wq m c) _).trans ?_
  exact transpose_apply [1, 0] (a2 m c) transposes_S512x1024_S1024x512_1_0 (ix2 q d) (ix2 d q)
    (fun b => match b with | ⟨0, _⟩ => rfl | ⟨1, _⟩ => rfl)

/-- The staged first bias. -/
theorem blk3_at (c : Dev nD) (t : Fin cfg0.N) (d : Fin 512) : blk3 m c t (ix1 d) = a3 m c (ix1 d) := by
  obtain ⟨-, -, -, -, -, -, -, -, e0, -⟩ := idx_facts t
  show V m c main_arg3 (((cfg0.win 3).blk t).view.emb (ix1 d)) = _
  refine (congrFun (V_main_arg3 m c) _).trans ?_
  refine congrArg (a3 m c) (funext fun a => Fin.ext ?_)
  match a with
  | ⟨0, _⟩ => show win0_3.index t (0 : Fin 1) * 512 + 1 * d.val = d.val; omega

/-- The staged last weight at `(d, q)` is the weight at `(q, d)`. -/
theorem blk4_at (c : Dev nD) (t : Fin cfg0.N) (d : Fin 512) (q : Fin 1024) :
    blk4 m c t (ix2 d q) = a4 m c (ix2 q d) := by
  obtain ⟨-, -, -, -, -, -, -, -, -, e0, e1, -⟩ := idx_facts t
  show V m c main_v3 (((cfg0.win 4).blk t).view.emb (ix2 d q)) = _
  have he : ((cfg0.win 4).blk t).view.emb (ix2 d q) = ix2 d q := funext fun a => Fin.ext (by
    match a with
    | ⟨0, _⟩ => show win0_4.index t (0 : Fin 2) * 512 + 1 * d.val = d.val; omega
    | ⟨1, _⟩ => show win0_4.index t (1 : Fin 2) * 1024 + 1 * q.val = q.val; omega)
  refine (congrArg (V m c main_v3) he).trans ?_
  refine (congrFun (V_wm m c) _).trans ?_
  exact transpose_apply [1, 0] (a4 m c) transposes_S1024x512_S512x1024_1_0 (ix2 d q) (ix2 q d)
    (fun b => match b with | ⟨0, _⟩ => rfl | ⟨1, _⟩ => rfl)

/-- The staged last bias. -/
theorem blk5_at (c : Dev nD) (t : Fin cfg0.N) (q : Fin 1024) : blk5 m c t (ix1 q) = a5 m c (ix1 q) := by
  obtain ⟨-, -, -, -, -, -, -, -, -, -, -, e0, -⟩ := idx_facts t
  show V m c main_arg5 (((cfg0.win 5).blk t).view.emb (ix1 q)) = _
  refine (congrFun (V_main_arg5 m c) _).trans ?_
  refine congrArg (a5 m c) (funext fun a => Fin.ext ?_)
  match a with
  | ⟨0, _⟩ => show win0_5.index t (0 : Fin 1) * 1024 + 1 * q.val = q.val; omega

/-- Element `(0, r, q)` of the output block of point `t` is element `(t / 4, (t % 4) · 512 + r, q)` of the output array. -/
theorem out_emb (t : Fin cfg0.N) (r : Fin 512) (q : Fin 1024) :
    ((cfg0.win 6).blk t).view.emb (ix3 (0 : Fin 1) r q) = ix3 (bOf t) (sOf t r) q := by
  obtain ⟨-, -, -, -, -, -, -, -, -, -, -, -, e0, e1, e2⟩ := idx_facts t
  funext a; apply Fin.ext
  match a with
  | ⟨0, _⟩ => show win0_6.index t (0 : Fin 3) * 1 + 1 * 0 = t.val / 4; omega
  | ⟨1, _⟩ => show win0_6.index t (1 : Fin 3) * 512 + 1 * r.val = t.val % 4 * 512 + r.val; omega
  | ⟨2, _⟩ => show win0_6.index t (2 : Fin 3) * 1024 + 1 * q.val = q.val; omega

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The body's result from ANY six input blocks, at `(0, r, q)`: the output row of row `r` of the first block against
    the memory block, the weights entering transposed, normalising last. -/
theorem block_at (x0 : Vec Ideal S1x512x1024 .f32) (x1 : Vec Ideal S1x4096x512 .bf16) (x2 : Vec Ideal S1024x512 .bf16)
    (x3 : Vec Ideal S512 .f32) (x4 : Vec Ideal S512x1024 .bf16) (x5 : Vec Ideal S1024 .f32) (r : Fin 512) (q : Fin 1024) :
    out0_6 (F := Ideal) x0 x1 x2 x3 x4 x5 (ix3 (0 : Fin 1) r q)
      = outDeferred (fun q' => x0 (ix3 (0 : Fin 1) r q')) (fun j d => x1 (ix3 (0 : Fin 1) j d)) (fun d q' => x2 (ix2 q' d))
          (fun d => x3 (ix1 d)) (fun q' d => x4 (ix2 d q')) (fun q' => x5 (ix1 q')) q := by
  unfold out0_6
  refine (Value.canon6_eq (F := Ideal) (View.ld x0 r0_0) (View.ld x2 r0_1) (View.ld x3 r0_2) (View.ld x1 r0_3) (View.ld x4 r0_4)
    (View.ld x5 r0_5) (ix3 (0 : Fin 1) r q)).trans ?_
  rw [View.ld_unit_zero (S := S1x512x1024) hz3 _ x0, View.ld_unit_zero (S := S1024x512) hz2 _ x2, View.ld_unit_zero (S := S512) hz1 _ x3,
    View.ld_unit_zero (S := S1x4096x512) hz3 _ x1, View.ld_unit_zero (S := S512x1024) hz2 _ x4, View.ld_unit_zero (S := S1024) hz1 _ x5]
  show k0_pay2 (F := Ideal) x0 x2 x3 x1 x1 x4 (Value.ix6_0 (ix3 (0 : Fin 1) r q)) + x5 (Value.ix6_1 (ix3 (0 : Fin 1) r q)) = _
  have e0 : Value.ix6_0 (ix3 (0 : Fin 1) r q) = ix2 r q := by
    funext a; match a with | ⟨0, _⟩ => rfl | ⟨1, _⟩ => rfl
  have e1 : Value.ix6_1 (ix3 (0 : Fin 1) r q) = ix1 q := by
    funext a; match a with | ⟨0, _⟩ => rfl
  rw [e0, e1, pay2_at]
  rfl

/-- WHAT POINT `t` WRITES BACK is block `t` of the output array `G`. -/
theorem flushed_eq (c : Dev nD) (t : Fin cfg0.N) :
    (dats m 0 c).flushed 6 t = ((cfg0.win 6).blk t).view.read (Elt Ideal) (G m c) := by
  rw [Value.flushed6]
  funext (y : S1x512x1024.Idx)
  obtain ⟨z, r, q, rfl⟩ : ∃ (z : Fin 1) (r : Fin 512) (q : Fin 1024), y = ix3 z r q := ⟨y 0, y 1, y 2, eq_ix3 y⟩
  obtain rfl : z = 0 := Subsingleton.elim _ _
  show out0_6 (F := Ideal) (blk0 m c t) (blk1 m c t) (blk2 m c t) (blk3 m c t) (blk4 m c t) (blk5 m c t) (ix3 (0 : Fin 1) r q)
    = G m c (((cfg0.win 6).blk t).view.emb (ix3 (0 : Fin 1) r q))
  rw [block_at, out_emb t r q]
  show _ = deferredArr (a0 m c) (a1 m c) (a2 m c) (a3 m c) (a4 m c) (a5 m c) (ix3 (bOf t) (sOf t r) q)
  rw [deferredArr_ix3]
  unfold deferredAt
  simp only [blk0_at, blk1_at, blk2_at, blk3_at, blk4_at, blk5_at]

/-! ## The sixteen blocks tile the array -/

/-- An index of the array is in point `t`'s block iff each coordinate is in the block's range on its axis. -/
theorem mem_blk (t : Fin cfg0.N) (i : S4x2048x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole main_v5).slice (win0_6.rect t)).set ↔ _
  rw [View.set_slice_whole, Rect.mem_set_unit]
  exact Iff.rfl

/-- Every index `(b, s, q)` is in the block of point `4 b + s / 512`. -/
theorem cover (i : S4x2048x1024.Idx) :
    ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  have hN : cfg0.N = 16 := N_0
  obtain ⟨t, ht⟩ : ∃ t : Fin cfg0.N, t.val = (i 0).val * 4 + (i 1).val / 512 :=
    ⟨⟨(i 0).val * 4 + (i 1).val / 512, by omega⟩, rfl⟩
  obtain ⟨-, -, -, -, -, -, -, -, -, -, -, -, e0, e1, e2⟩ := idx_facts t
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- THE OUTPUT ARRAY after the run is `G` of the argument arrays. -/
theorem final (c : Dev nD) : (dats m 0 c).arrAt 6 cfg0.N = G m c :=
  (dats m 0 c).arrAt_eq_of_cover 6 (G m c) (fun t _ => flushed_eq m c t) cover

/-- The run, read: every weakly fair execution ends with the output array at `G` and the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.RefRow.lean ====
/-
  The reference program read at one output element.

  Its stages are whole-array operations; read at an index each is the matching quantity of one query row: the first
  contraction plus the bias is the row's query, the batched contraction with the memory its scores, the reduction by
  the maximum from `-∞` (and one more maximum with `-∞`, which changes nothing) the largest score, the exponential of
  the difference the weights, the sum from zero their total, the quotient the normalised weights, the second batched
  contraction the attended vector normalised first, and the last contraction plus its bias the output row.
-/
import proofs.«419843_j47476568490236_3_alg».proof.Proof.Spec
import proofs.«419843_j47476568490236_3_alg».proof.Proof.Gen.ReferenceIdeal.Read
import Idealize.ShloMosaic.PureOps.Reduce

noncomputable section

namespace Cert.ReferenceIdeal.Row

open Cert.ReferenceIdeal Cert.ReferenceIdeal.Gen Cert.ReferenceIdeal.Read Idealize.ShloMosaic Idealize.ShloMosaic.ValueIdx
open Cert.LibReal Cert.Attn
open scoped BigOperators

local macro "coords1" : tactic => `(tactic| (funext a; match a with | ⟨0, _⟩ => rfl))
local macro "coords2" : tactic => `(tactic| (funext a; match a with | ⟨0, _⟩ => rfl | ⟨1, _⟩ => rfl))
local macro "coords3" : tactic => `(tactic| (funext a; match a with | ⟨0, _⟩ => rfl | ⟨1, _⟩ => rfl | ⟨2, _⟩ => rfl))

variable (x0 : (⟨S4x2048x1024, .f32⟩ : BufTy).Contents (Elt Ideal)) (x1 : (⟨S4x4096x512, .f32⟩ : BufTy).Contents (Elt Ideal))
  (x2 : (⟨S512x1024, .f32⟩ : BufTy).Contents (Elt Ideal)) (x3 : (⟨S512, .f32⟩ : BufTy).Contents (Elt Ideal))
  (x4 : (⟨S1024x512, .f32⟩ : BufTy).Contents (Elt Ideal)) (x5 : (⟨S1024, .f32⟩ : BufTy).Contents (Elt Ideal))

/-- The first layer at `(b, s, d)` is entry `d` of the row's query. -/
theorem query_at (b : Fin 4) (s : Fin 2048) (d : Fin 512) :
    val_main_v3 (F := Ideal) x0 x2 x3 (ix3 b s d) = query (rowOf x0 b s) (wqOf x2) (bqOf x3) d := by
  rw [val_main_v3_apply, val_main_v0_apply, val_main_v2_apply, val_main_v1_apply]
  have e1 : ∀ k, lidx_main_v0 (ix3 b s d) k = ix3 b s k := fun k => by coords3
  have e2 : ∀ k, ridx_main_v0 (ix3 b s d) k = ix2 d k := fun k => by coords2
  have e3 : idx_main_v1 (idx_main_v2 (ix3 b s d)) = ix1 d := by coords1
  simp only [e1, e2, e3]
  rfl

/-- The scores at `(b, s, j)`. -/
theorem score_at (b : Fin 4) (s : Fin 2048) (j : Fin 4096) :
    val_main_v4 (F := Ideal) x0 x1 x2 x3 (ix3 b s j) = score (rowOf x0 b s) (memOf x1 b) (wqOf x2) (bqOf x3) j := by
  rw [val_main_v4_apply]
  unfold score
  refine Finset.sum_congr rfl fun k _ => ?_
  have e1 : lidx_main_v4 (ix3 b s j) k = ix3 b s k := by coords3
  have e2 : ridx_main_v4 (ix3 b s j) k = ix3 b j k := by coords3
  rw [e1, e2, query_at]

/-- The reduced index `(b, s)` with coordinate `k` put back on the last axis is `(b, s, k)`. -/
theorem lift_last (h : S4x2048x4096.Reduces [2] S4x2048) (b : Fin 4) (s : Fin 2048) (k : Fin (S4x2048x4096.size 2)) :
    h.lift (ix2 b s) k = ix3 b s (⟨k.val, k.isLt⟩ : Fin 4096) := by
  funext c; apply Fin.ext
  fin_cases c <;> rfl

/-- The largest score at `(b, s)`: the reduction folds the maximum from `-∞` over the last axis, and the further
    maximum with `-∞` is the identity. -/
theorem smax_at (b : Fin 4) (s : Fin 2048) :
    val_main_v7 (F := Ideal) x0 x1 x2 x3 (ix2 b s) = smax (rowOf x0 b s) (memOf x1 b) (wqOf x2) (bqOf x3) := by
  rw [val_main_v7_apply, val_main_v6_apply, val_main_cst_0_apply]
  unfold val_main_v5
  rw [Host.reduce_eq_fold_single FloatOps.maximumf _ _ reducesTo_S4x2048x4096_S4x2048_d2 (by decide) h_S_]
  show max (Ideal.ofBits .f32 0xFF800000#32) (Finset.fold max (Ideal.ofBits .f32 0xFF800000#32) _ Finset.univ) = _
  rw [ofBits_neg_inf, max_eq_right bot_le]
  unfold smax
  refine congrArg (fun f => Finset.fold max (⊥ : EReal) f (Finset.univ : Finset (Fin 4096))) (funext fun k => ?_)
  show val_main_v4 (F := Ideal) x0 x1 x2 x3 (Shape.Reduces.lift _ (ix2 b s) k) = _
  rw [lift_last, score_at]
  rfl

/-- The weights at `(b, s, j)`. -/
theorem weight_at (b : Fin 4) (s : Fin 2048) (j : Fin 4096) :
    val_main_v11 (F := Ideal) x0 x1 x2 x3 (ix3 b s j) = weight (rowOf x0 b s) (memOf x1 b) (wqOf x2) (bqOf x3) j := by
  rw [val_main_v11_apply, val_main_v10_apply, val_main_v9_apply, val_main_v8_apply]
  have e : idx_main_v8 (idx_main_v9 (ix3 b s j)) = ix2 b s := by coords2
  rw [e, smax_at, score_at]
  rfl

/-- Their total at `(b, s)`: the sum starts from the word for zero. -/
theorem norm_at (b : Fin 4) (s : Fin 2048) :
    val_main_v12 (F := Ideal) x0 x1 x2 x3 (ix2 b s) = Attn.norm (rowOf x0 b s) (memOf x1 b) (wqOf x2) (bqOf x3) := by
  rw [val_main_v12_apply, val_main_cst_1_apply]
  show Ideal.ofBits .f32 0x00000000#32 + _ = _
  rw [Ideal.ofBits_zero_f32, zero_add]
  unfold Attn.norm
  refine Finset.sum_congr rfl fun k _ => ?_
  have e : idx_main_v12 (ix2 b s) k = ix3 b s k := by coords3
  rw [e, weight_at]

/-- The normalised weights at `(b, s, j)`. -/
theorem normalized_at (b : Fin 4) (s : Fin 2048) (j : Fin 4096) :
    val_main_v15 (F := Ideal) x0 x1 x2 x3 (ix3 b s j)
      = Ideal.div (weight (rowOf x0 b s) (memOf x1 b) (wqOf x2) (bqOf x3) j) (Attn.norm (rowOf x0 b s) (memOf x1 b) (wqOf x2) (bqOf x3)) := by
  rw [val_main_v15_apply, val_main_v14_apply, val_main_v13_apply]
  have e : idx_main_v13 (idx_main_v14 (ix3 b s j)) = ix2 b s := by coords2
  rw [e, norm_at, weight_at]
  rfl

/-- The attended vector at `(b, s, d)`, normalised first. -/
theorem attended_at (b : Fin 4) (s : Fin 2048) (d : Fin 512) :
    val_main_v16 (F := Ideal) x0 x1 x2 x3 (ix3 b s d) = attendedNormalized (rowOf x0 b s) (memOf x1 b) (wqOf x2) (bqOf x3) d := by
  rw [val_main_v16_apply]
  unfold attendedNormalized
  refine Finset.sum_congr rfl fun k _ => ?_
  have e1 : lidx_main_v16 (ix3 b s d) k = ix3 b s k := by coords3
  have e2 : ridx_main_v16 (ix3 b s d) k = ix3 b k d := by coords3
  rw [e1, e2, normalized_at]

/-- THE REFERENCE'S RESULT at `(b, s, q)`: the output row normalised first. -/
theorem result_at (b : Fin 4) (s : Fin 2048) (q : Fin 1024) :
    val_main_v20 (F := Ideal) x0 x1 x2 x3 x4 x5 (ix3 b s q) = normalizedAt x0 x1 x2 x3 x4 x5 b s q := by
  rw [val_main_v20_apply, val_main_v17_apply, val_main_v19_apply, val_main_v18_apply]
  have e3 : idx_main_v18 (idx_main_v19 (ix3 b s q)) = ix1 q := by coords1
  rw [e3]
  unfold normalizedAt outNormalized
  refine congrArg (· + x5 (ix1 q)) (Finset.sum_congr rfl fun k _ => ?_)
  have e1 : lidx_main_v17 (ix3 b s q) k = ix3 b s k := by coords3
  have e2 : ridx_main_v17 (ix3 b s q) k = ix2 q k := by coords2
  rw [e1, e2, attended_at]

/-- So the reference's result array IS the normalised-first output array. -/
theorem result_eq : val_main_v20 (F := Ideal) x0 x1 x2 x3 x4 x5 = normalizedArr x0 x1 x2 x3 x4 x5 := by
  funext i
  obtain ⟨b, s, q, rfl⟩ : ∃ (b : Fin 4) (s : Fin 2048) (q : Fin 1024), i = ix3 b s q := ⟨i 0, i 1, i 2, eq_ix3 i⟩
  rw [result_at, normalizedArr_ix3]

end Cert.ReferenceIdeal.Row

end
-- ==== Proof.Finite.lean ====
/-
  From the precondition to finiteness.

  The precondition is the conjunction, over the six float inputs, of "every element is below `+∞` in absolute
  value": an `and` of six reductions by `and`, each over all axes of a comparison of `|x|` with the word for `+∞`.
  The conjunction being one gives each reduction one, a reduction by `and` being one gives every compared element
  one, and an extended real whose absolute value is below `+∞` is neither infinity: a finite real.
-/
import proofs.«419843_j47476568490236_3_alg».proof.Proof.Gen.Pre_finite_inputs
import proofs.«419843_j47476568490236_3_alg».proof.Proof.LibReal
import Idealize.ShloMosaic.Lib.ReduceAll
import Idealize.ShloMosaic.Lib.Pipeline.Value
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Idealize.ShloMosaic.ValueIdx Cert.LibReal

/-- The scalar shape has one index. -/
instance : Subsingleton S_.Idx := ⟨fun a b => funext fun d => d.elim0⟩

/-- One element's test: `|x i| < +∞` read as a word being one makes `x i` a finite real. -/
theorem isReal_of_test {S : Shape} (x : FVec Ideal S .f32) (hb : S_.BroadcastsInDim S (![] : Fin 0 → Fin S.rank)) (i : S.Idx)
    (e : cmpf .olt (Host.absf x) (broadcastInDim S ![] hb (constant (F := Ideal) S_ .f32 0x7F800000#32)) i = 1#1) :
    IsReal (x i) := by
  have hb' : (broadcastInDim S ![] hb (constant (F := Ideal) S_ .f32 0x7F800000#32)) i = Ideal.ofBits .f32 0x7F800000#32 :=
    broadcastInDim_apply _ hb _ i ix0 (fun a => a.elim0)
  have e' : Ideal.cmp .olt (max (x i) (-(x i))) (Ideal.ofBits .f32 0x7F800000#32) = 1#1 := by
    rw [← hb']; exact e
  rw [ofBits_pos_inf] at e'
  have e'' : BitVec.ofBool (decide (max (x i) (-(x i)) < ⊤)) = 1#1 := e'
  cases hd : decide (max (x i) (-(x i)) < ⊤) with
  | true => exact isReal_of_abs_lt_top (of_decide_eq_true hd)
  | false => rw [hd] at e''; exact absurd e'' (by decide)

/-- Under the precondition every element of every input is a finite real. -/
theorem finite_of_pre (a0 : FVec Ideal S4x2048x1024 .f32) (a1 : FVec Ideal S4x4096x512 .f32) (a2 : FVec Ideal S512x1024 .f32)
    (a3 : FVec Ideal S512 .f32) (a4 : FVec Ideal S1024x512 .f32) (a5 : FVec Ideal S1024 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) := by
  have h0 := congrFun h ix0
  dsimp only [fn, fn_part1, Idealize.ShloMosaic.andi] at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨fun i => isReal_of_test a0 _ i (Host.reduce_andi_all _ _ _ _ _ e0 i),
    fun i => isReal_of_test a1 _ i (Host.reduce_andi_all _ _ _ _ _ e1 i),
    fun i => isReal_of_test a2 _ i (Host.reduce_andi_all _ _ _ _ _ e2 i),
    fun i => isReal_of_test a3 _ i (Host.reduce_andi_all _ _ _ _ _ e3 i),
    fun i => isReal_of_test a4 _ i (Host.reduce_andi_all _ _ _ _ _ e4 i),
    fun i => isReal_of_test a5 _ i (Host.reduce_andi_all _ _ _ _ _ e5 i)⟩

end Cert.Pre_finite_inputs.Finite

end
-- ==== Proof.lean ====
/-
  A fused attention kernel against its plain reference, over the extended reals.

  Both programs compute, for `x : [4, 2048, 1024]`, `mem : [4, 4096, 512]` and two linear layers `(Wq, bq)`, `(Wm, bm)`,

    query  = x · Wqᵀ + bq                    scores = query · memᵀ   (per batch)
    weight = exp (scores - rowmax scores)    norm   = rowsum weight
    out    = attended · Wmᵀ + bm

  and differ in one step. The reference normalises the weights first, `attended = (weight / norm) · mem`; the kernel,
  working on blocks of 512 rows with one batch of the memory resident, sums first and multiplies by `1 / norm`
  after, `attended = (weight · mem) · (1 / norm)`. Its changes of float format are the identity on extended reals,
  its matrix products into zero accumulators are the reference's contractions, its row maximum from `-∞` and row sum
  from zero are the reference's reductions (the reference's extra maximum with `-∞` is the identity), and the
  transposes of the two weights before the region are undone by the products' contraction axes.

  The two forms of `attended` agree when every value is a finite real, and the precondition says exactly that of
  the inputs: then the scores, their maximum and the weights are finite, the weights are positive, `norm` is a
  positive real, and `(∑ a_j) · (1 / L) = ∑ (a_j / L)` is the reals' distributivity (`Proof/Spec.lean`).

  The modules: `Spec` (one row's mathematics and the law), `RefRow` (the reference read at an element),
  `KernelProducts` and `KernelRow` (the kernel's body read at an element of its block), `KernelBlocks` (from the
  sixteen blocks to the output array), `Finite` (from the precondition to finiteness), `LibReal` (finite reals among
  the extended reals). Here the five claims are assembled.
-/
import proofs.«419843_j47476568490236_3_alg».proof.Defs
import proofs.«419843_j47476568490236_3_alg».proof.Proof.Gen.Kernel
import proofs.«419843_j47476568490236_3_alg».proof.Proof.Gen.Kernel.Skeleton
import proofs.«419843_j47476568490236_3_alg».proof.Proof.Gen.Kernel.Launch
import proofs.«419843_j47476568490236_3_alg».proof.Proof.Gen.Kernel.Points
import proofs.«419843_j47476568490236_3_alg».proof.Proof.Gen.Kernel.Frame
import proofs.«419843_j47476568490236_3_alg».proof.Proof.Gen.KernelIdeal
import proofs.«419843_j47476568490236_3_alg».proof.Proof.Gen.KernelIdeal.Skeleton
import proofs.«419843_j47476568490236_3_alg».proof.Proof.Gen.KernelIdeal.Launch
import proofs.«419843_j47476568490236_3_alg».proof.Proof.Gen.KernelIdeal.Points
import proofs.«419843_j47476568490236_3_alg».proof.Proof.Gen.KernelIdeal.Frame
import proofs.«419843_j47476568490236_3_alg».proof.Proof.Gen.ReferenceIdeal
import proofs.«419843_j47476568490236_3_alg».proof.Proof.Gen.Pre_finite_inputs
import proofs.«419843_j47476568490236_3_alg».proof.Proof.Gen.KernelIdeal.Value
import proofs.«419843_j47476568490236_3_alg».proof.Proof.Gen.ReferenceIdeal.Run
import proofs.«419843_j47476568490236_3_alg».proof.Proof.Gen.ReferenceIdeal.Read
import proofs.«419843_j47476568490236_3_alg».proof.Proof.KernelBlocks
import proofs.«419843_j47476568490236_3_alg».proof.Proof.RefRow
import proofs.«419843_j47476568490236_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: it runs, and no operation writes an argument. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing, so there is nothing to preserve. -/
theorem preserves : Cert.preserves_Kernel_KernelIdeal := trivial

/-- From memories that agree on the arguments, the first result of both programs is `x` itself and the second is
    the output array: the kernel's in the normalise-last form (its blocks, assembled), the reference's in the
    normalise-first form (its stages, read at an element), equal because the precondition makes every input finite. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => Cert.KernelIdeal.Blocks.G m c, ?_, ?_⟩
  · exact (θ_run Cert.KernelIdeal.defs _ _).mono (fun _ h c => ⟨(h c).2.1, (h c).1, (h c).2⟩)
      (Cert.KernelIdeal.Blocks.run m ρ)
  · refine (θ_run Cert.ReferenceIdeal.defs _ _).mono
      (fun _ h c => ⟨(h c).1.trans (hagree c).1, (h c).2.1.trans ?_, (h c).2.2⟩)
      (Cert.ReferenceIdeal.Value.run (F := Ideal) m' ρ')
    obtain ⟨h0, h1, h2, h3, -, -⟩ := Cert.Pre_finite_inputs.Finite.finite_of_pre _ _ _ _ _ _ (hpre c)
    rw [Cert.ReferenceIdeal.Read.val_main_v20_eq, Cert.ReferenceIdeal.Row.result_eq, (hagree c).1, (hagree c).2.1,
      (hagree c).2.2.1, (hagree c).2.2.2.1, (hagree c).2.2.2.2.1, (hagree c).2.2.2.2.2]
    exact (Cert.Attn.arr_eq _ _ _ _ _ _ h0 h1 h2 h3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
